-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  shapeCasts_S1024x64_S1x1024x64 : S1024x64.ShapeCasts S1x1024x64
  shapeCasts_S64x2048x64_S4x16x2048x64 : S64x2048x64.ShapeCasts S4x16x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The function both programs compute, on the extended reals.

  For query, key and value arrays `q k v : [4, 16, 2048, 64]` (batch, head, position, feature) the result at
  `(b, h, s, d)` is

      ∑ t, ((∑ e, q[b,h,s,e] · k[b,h,t,e]) · 1/8) · v[b,h,t,d]

  — the scaled scores of position `s` against every position `t` of the same head, applied to the values; no
  softmax. `attn` states it over the four-axis arrays, `attn3` over the same arrays with batch and head merged
  into one leading axis of 64, which is how the kernel sees them. The two are the same sums term by term: only
  the name of the leading coordinate differs (`attn3_reshape`).
-/
import Idealize.ShloMosaic.PureOps.Ideal
import Idealize.ShloMosaic.Lib.ValueIdx
import Idealize.ShloMosaic.Lib.Pipeline.Value

noncomputable section

namespace Cert.Attn

open Idealize.ShloMosaic Idealize.ShloMosaic.ValueIdx

/-- The four-axis arrays: batch 4, heads 16, positions 2048, features 64. -/
abbrev A4 : Shape := ⟨4, ![4, 16, 2048, 64]⟩
/-- The same with batch and head merged: 64 heads in all. -/
abbrev A3 : Shape := ⟨3, ![64, 2048, 64]⟩

/-- The score scale 1/8 = 1/√64, as the f32 word both programs carry. -/
abbrev scale : EReal := Ideal.ofBits .f32 0x3E000000#32

/-- The scaled score of position `s` against position `t` in head `(b, h)`. -/
def score (q k : A4.Idx → EReal) (b : Fin 4) (h : Fin 16) (s t : Fin 2048) : EReal :=
  (∑ e : Fin 64, q (ix4 b h s e) * k (ix4 b h t e)) * scale

/-- The result at `i = (b, h, s, d)`: the scores of `s` against every `t`, applied to the values' column `d`. -/
def attn (q k v : A4.Idx → EReal) (i : A4.Idx) : EReal :=
  ∑ t : Fin 2048, score q k (i 0) (i 1) (i 2) t * v (ix4 (i 0) (i 1) t (i 3))

/-- The scaled score over the merged arrays, in head `g`. -/
def score3 (q k : A3.Idx → EReal) (g : Fin 64) (s t : Fin 2048) : EReal :=
  (∑ e : Fin 64, q (ix3 g s e) * k (ix3 g t e)) * scale

/-- The result over the merged arrays at `j = (g, s, d)`. -/
def attn3 (q k v : A3.Idx → EReal) (j : A3.Idx) : EReal :=
  ∑ t : Fin 2048, score3 q k (j 0) (j 1) t * v (ix3 (j 0) t (j 2))

/-- Head `h` of batch `b` is merged head `16 b + h`. -/
def head (b : Fin 4) (h : Fin 16) : Fin 64 := ⟨b.val * 16 + h.val, by omega⟩

/-- Merging batch and head: the merged array at `(16 b + h, s, d)` is the array at `(b, h, s, d)` (both are the
    same row-major position). -/
theorem merge_apply (x : A4.Idx → EReal) (hc : A4.ShapeCasts A3) (b : Fin 4) (h : Fin 16) (s : Fin 2048) (d : Fin 64) :
    shapeCast A3 x hc (ix3 (head b h) s d) = x (ix4 b h s d) :=
  shapeCast_apply x hc _ _ (by
    rw [Shape.rowMajor_val_four, Shape.rowMajor_val_three]
    show ((b.val * 16 + h.val) * 2048 + s.val) * 64 + d.val = ((b.val * 16 + h.val) * 2048 + s.val) * 64 + d.val
    rfl)

/-- Splitting the merged axis again: the split array at `(b, h, s, d)` is the merged one at `(16 b + h, s, d)`. -/
theorem split_apply (y : A3.Idx → EReal) (hc : A3.ShapeCasts A4) (b : Fin 4) (h : Fin 16) (s : Fin 2048) (d : Fin 64) :
    shapeCast A4 y hc (ix4 b h s d) = y (ix3 (head b h) s d) :=
  shapeCast_apply y hc _ _ (by
    rw [Shape.rowMajor_val_four, Shape.rowMajor_val_three]
    show ((b.val * 16 + h.val) * 2048 + s.val) * 64 + d.val = ((b.val * 16 + h.val) * 2048 + s.val) * 64 + d.val
    rfl)

/-- The merged computation on merged arrays, split again, is the four-axis computation: every entry the sums
    read is the same entry under its other name. -/
theorem split_attn3_merge (q k v : A4.Idx → EReal) (hm : A4.ShapeCasts A3) (hs : A3.ShapeCasts A4) :
    shapeCast A4 (attn3 (shapeCast A3 q hm) (shapeCast A3 k hm) (shapeCast A3 v hm)) hs = attn q k v := by
  funext i
  obtain ⟨b, h, s, d, rfl⟩ : ∃ (b : Fin 4) (h : Fin 16) (s : Fin 2048) (d : Fin 64), i = ix4 b h s d :=
    ⟨i 0, i 1, i 2, i 3, eq_ix4 i⟩
  rw [split_apply]
  unfold attn attn3 score score3
  refine Finset.sum_congr rfl fun t _ => ?_
  show (∑ e : Fin 64, shapeCast A3 q hm (ix3 (head b h) s e) * shapeCast A3 k hm (ix3 (head b h) t e)) * scale
      * shapeCast A3 v hm (ix3 (head b h) t d)
    = (∑ e : Fin 64, q (ix4 b h s e) * k (ix4 b h t e)) * scale * v (ix4 b h t d)
  rw [merge_apply]
  refine congrArg (fun z => z * scale * v (ix4 b h t d)) (Finset.sum_congr rfl fun e _ => ?_)
  rw [merge_apply, merge_apply]

end Cert.Attn

end
-- ==== Proof.RefValue.lean ====
/-
  The reference computes `Attn.attn`.

  Its five operations are: the batched product q·kᵀ over the feature axis (batch axes: batch and head), the constant
  1/8 broadcast, their product entry by entry, and the batched product of that with v over the position axis. Read at
  an index `(b, h, s, d)` through the generated one-operation-at-a-time lemmas, the last product is the sum over `t`
  of the scaled score `(b, h, s, t)` times `v[b, h, t, d]`, and the scaled score is the sum over `e` of
  `q[b,h,s,e] · k[b,h,t,e]` times the constant: literally `attn`.
-/
import proofs.«120791_j4990751998151_1_alg».proof.Proof.Gen.ReferenceIdeal.Read
import proofs.«120791_j4990751998151_1_alg».proof.Proof.Spec

noncomputable section

namespace Cert.Attn.Ref

open Idealize.ShloMosaic Idealize.ShloMosaic.ValueIdx Cert.ReferenceIdeal Cert.ReferenceIdeal.Read Cert.Attn

/-- The last product's left operand index at contraction position `t`: the score `(b, h, s, t)`. -/
theorem lidx3 (b : Fin 4) (h : Fin 16) (s : Fin 2048) (d : Fin 64) (t : Fin 2048) :
    lidx_main_v3 (ix4 b h s d) t = ix4 b h s t :=
  funext fun a => Fin.ext (by match a with | ⟨0, _⟩ => rfl | ⟨1, _⟩ => rfl | ⟨2, _⟩ => rfl | ⟨3, _⟩ => rfl)
/-- and its right operand index: the value `(b, h, t, d)`. -/
theorem ridx3 (b : Fin 4) (h : Fin 16) (s : Fin 2048) (d : Fin 64) (t : Fin 2048) :
    ridx_main_v3 (ix4 b h s d) t = ix4 b h t d :=
  funext fun a => Fin.ext (by match a with | ⟨0, _⟩ => rfl | ⟨1, _⟩ => rfl | ⟨2, _⟩ => rfl | ⟨3, _⟩ => rfl)
/-- The first product's operand indices for the score `(b, h, s, t)` at feature `e`: the query `(b, h, s, e)` -/
theorem lidx0 (b : Fin 4) (h : Fin 16) (s t : Fin 2048) (e : Fin 64) :
    lidx_main_v0 (ix4 b h s t) e = ix4 b h s e :=
  funext fun a => Fin.ext (by match a with | ⟨0, _⟩ => rfl | ⟨1, _⟩ => rfl | ⟨2, _⟩ => rfl | ⟨3, _⟩ => rfl)
/-- and the key `(b, h, t, e)`. -/
theorem ridx0 (b : Fin 4) (h : Fin 16) (s t : Fin 2048) (e : Fin 64) :
    ridx_main_v0 (ix4 b h s t) e = ix4 b h t e :=
  funext fun a => Fin.ext (by match a with | ⟨0, _⟩ => rfl | ⟨1, _⟩ => rfl | ⟨2, _⟩ => rfl | ⟨3, _⟩ => rfl)

/-- The reference's result, as a function of its three arguments, is `attn`. -/
theorem result_eq (x0 x1 x2 : (⟨S4x16x2048x64, .f32⟩ : BufTy).Contents (Elt Ideal)) :
    val_main_v3 (F := Ideal) x0 x1 x2 = attn x0 x1 x2 := by
  funext i
  obtain ⟨b, h, s, d, rfl⟩ : ∃ (b : Fin 4) (h : Fin 16) (s : Fin 2048) (d : Fin 64), i = ix4 b h s d :=
    ⟨i 0, i 1, i 2, i 3, eq_ix4 i⟩
  rw [val_main_v3_apply]
  unfold attn score
  refine Finset.sum_congr rfl fun t _ => ?_
  rw [lidx3, ridx3, val_main_v2_apply, val_main_v0_apply, val_main_v1_apply, val_main_cst_apply]
  simp only [lidx0, ridx0]
  rfl

end Cert.Attn.Ref

end
-- ==== Proof.Payload.lean ====
/-
  What the kernel body stores, at an index.

  At a grid point the body holds a block `x0 : [1, 1024, 64]` of queries (1024 consecutive positions of one merged
  head) and that head's whole key and value arrays `x1 x2 : [1, 2048, 64]`. It drops the unit axis, transposes the
  keys, multiplies queries by transposed keys into a zero accumulator (scores, [1024, 2048]), scales every score by
  1/8, multiplies the scores by the values into a zero accumulator ([1024, 64]) and puts the unit axis back. On the
  extended reals a change of float format is the identity and a product into the zero accumulator is the plain sum
  over the contracted axis, so the stored entry `(0, s, d)` is

      ∑ t, ((∑ e, x0[0,s,e] · x1[0,t,e]) · 1/8) · x2[0,t,d].
-/
import proofs.«120791_j4990751998151_1_alg».proof.Proof.Gen.KernelIdeal.Skeleton
import proofs.«120791_j4990751998151_1_alg».proof.Proof.Spec
import Idealize.ShloMosaic.Lib.ValueLayout
import Idealize.ShloMosaic.PureOps.Ideal.Laws

noncomputable section

namespace Cert.Attn.Body

open Idealize.ShloMosaic Idealize.ShloMosaic.ValueIdx Cert.KernelIdeal Cert.KernelIdeal.Gen Cert.Attn

/-! ## The two products' operand indices -/

/-- Queries times transposed keys: the left operand's row is the result's row, -/
theorem lhs_qk_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
/-- its column the contraction position; -/
theorem lhs_qk_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
/-- the right operand's row is the contraction position, -/
theorem rhs_qk_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
/-- its column the result's column. -/
theorem rhs_qk_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Scores times values: the same four facts. -/
theorem lhs_sv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_sv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_sv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_sv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The two products as sums -/

/-- Queries times transposed keys into the zero accumulator: entry `(s, t)` is `∑ e, a[s,e] · b[e,t]`. -/
theorem qk_apply (a : FVec Ideal S1024x64 .bf16) (b : FVec Ideal S64x2048 .bf16) (s : Fin 1024) (t : Fin 2048) :
    matmul dot_S1024x64_S64x2048_S1024x2048_1_0_0_1_n_n none a b (constant S1024x2048 .f32 0x00000000#32) (ix2 s t)
      = ∑ e : Fin 64, a (ix2 s e) * b (ix2 e t) := by
  simp only [matmul]
  rw [Ideal.matmul_constant_zero_apply, ← Equiv.sum_comp (contrEquiv1 dot_S1024x64_S64x2048_S1024x2048_1_0_0_1_n_n 64 rfl rfl).symm]
  refine Finset.sum_congr rfl fun e _ => ?_
  have hk := contrEquiv1_symm_val dot_S1024x64_S64x2048_S1024x2048_1_0_0_1_n_n 64 rfl rfl e
  have el : dot_S1024x64_S64x2048_S1024x2048_1_0_0_1_n_n.lhsIdx (ix2 s t) ((contrEquiv1 dot_S1024x64_S64x2048_S1024x2048_1_0_0_1_n_n 64 rfl rfl).symm e) = ix2 s e := funext fun c => Fin.ext (by
    match c with
    | ⟨0, _⟩ => exact lhs_qk_0 _ _
    | ⟨1, _⟩ => exact (lhs_qk_1 _ _).trans hk)
  have er : dot_S1024x64_S64x2048_S1024x2048_1_0_0_1_n_n.rhsIdx (ix2 s t) ((contrEquiv1 dot_S1024x64_S64x2048_S1024x2048_1_0_0_1_n_n 64 rfl rfl).symm e) = ix2 e t := funext fun c => Fin.ext (by
    match c with
    | ⟨0, _⟩ => exact (rhs_qk_0 _ _).trans hk
    | ⟨1, _⟩ => exact rhs_qk_1 _ _)
  rw [el, er]

/-- Scores times values into the zero accumulator: entry `(s, d)` is `∑ t, p[s,t] · w[t,d]`. -/
theorem sv_apply (p : FVec Ideal S1024x2048 .bf16) (w : FVec Ideal S2048x64 .bf16) (s : Fin 1024) (d : Fin 64) :
    matmul dot_S1024x2048_S2048x64_S1024x64_1_0_0_1_n_n none p w (constant S1024x64 .f32 0x00000000#32) (ix2 s d)
      = ∑ t : Fin 2048, p (ix2 s t) * w (ix2 t d) := by
  simp only [matmul]
  rw [Ideal.matmul_constant_zero_apply, ← Equiv.sum_comp (contrEquiv1 dot_S1024x2048_S2048x64_S1024x64_1_0_0_1_n_n 2048 rfl rfl).symm]
  refine Finset.sum_congr rfl fun t _ => ?_
  have hk := contrEquiv1_symm_val dot_S1024x2048_S2048x64_S1024x64_1_0_0_1_n_n 2048 rfl rfl t
  have el : dot_S1024x2048_S2048x64_S1024x64_1_0_0_1_n_n.lhsIdx (ix2 s d) ((contrEquiv1 dot_S1024x2048_S2048x64_S1024x64_1_0_0_1_n_n 2048 rfl rfl).symm t) = ix2 s t := funext fun c => Fin.ext (by
    match c with
    | ⟨0, _⟩ => exact lhs_sv_0 _ _
    | ⟨1, _⟩ => exact (lhs_sv_1 _ _).trans hk)
  have er : dot_S1024x2048_S2048x64_S1024x64_1_0_0_1_n_n.rhsIdx (ix2 s d) ((contrEquiv1 dot_S1024x2048_S2048x64_S1024x64_1_0_0_1_n_n 2048 rfl rfl).symm t) = ix2 t d := funext fun c => Fin.ext (by
    match c with
    | ⟨0, _⟩ => exact (rhs_sv_0 _ _).trans hk
    | ⟨1, _⟩ => exact rhs_sv_1 _ _)
  rw [el, er]

/-! ## The stored block at an index -/

/-- The body's stored value at `(u, s, d)`, from the three blocks it loaded. -/
theorem stored_apply (x0 : Vec Ideal S1x1024x64 .f32) (x1 x2 : Vec Ideal S1x2048x64 .f32) (u : Fin 1) (s : Fin 1024) (d : Fin 64) :
    k0_pay1 (F := Ideal) x0 x1 x2 (ix3 u s d)
      = ∑ t : Fin 2048, ((∑ e : Fin 64, x0 (ix3 (0 : Fin 1) s e) * x1 (ix3 (0 : Fin 1) t e)) * scale) * x2 (ix3 (0 : Fin 1) t d) := by
  unfold k0_pay1
  rw [shapeCast_ab_1ab_apply, sv_apply]
  refine Finset.sum_congr rfl fun t _ => ?_
  rw [truncf_apply, truncf_apply, mulf_apply, broadcast_apply, shapeCast_1ab_ab_apply, qk_apply]
  refine congrArg (fun z => z * scale * x2 (ix3 (0 : Fin 1) t d)) (Finset.sum_congr rfl fun e _ => ?_)
  rw [truncf_apply, shapeCast_1ab_ab_apply, transpose_ix2_apply, truncf_apply, shapeCast_1ab_ab_apply]

end Cert.Attn.Body

end
-- ==== Proof.Blocks.lean ====
/-
  From the kernel's blocks to its result array.

  The grid has 64 × 2 points; point `(g, h)` works on merged head `g` and on the half `h` of its positions. Its
  query block and its output block are rows `1024 h … 1024 h + 1023` of head `g`; its key and value blocks are head
  `g` whole. So what the point writes back (`Payload.stored_apply` of those blocks) is the restriction of
  `attn3` of the three merged arrays to the output block (`flushed_eq`), the 128 output blocks tile the merged
  result array (`cover`), and the array ends at `attn3` of the three merged arrays (`final`).

  Around the region the program merges batch and head of each argument and splits them again in the result, so the
  result is `attn` of the arguments (`Spec.split_attn3_merge`): `run`.
-/
import proofs.«120791_j4990751998151_1_alg».proof.Proof.Gen.KernelIdeal.Frame
import proofs.«120791_j4990751998151_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Attn.Kernel

open Idealize.ShloMosaic.ValueIdx Cert.KernelIdeal Cert.KernelIdeal.Gen Cert.Attn

variable (m : (ℓ : Loc nD τ sig) → Buf (Elt Ideal) ℓ) (ρ : Dev nD → PrngReg)

theorem hz : (![0, 0, 0] : Fin 3 → Nat) = fun _ => 0 := funext fun a => by fin_cases a <;> rfl

/-! ## One point's stored block is `attn3` on the output block -/

/-- If the query block is rows `o …` of head `g` of `Q` and the key and value blocks are head `g` of `K` and `W`,
    the stored block at `j` is `attn3 Q K W` at row `o + j₁`, column `j₂` of head `g`. -/
theorem stored_eq_attn3 (Q K W : A3.Idx → EReal) (x0 : Vec Ideal S1x1024x64 .f32) (x1 x2 : Vec Ideal S1x2048x64 .f32)
    (g : Fin 64) (o : Nat)
    (h0 : ∀ (y : S1x1024x64.Idx) (i : A3.Idx), (i 0).val = g.val → (i 1).val = o + (y 1).val → (i 2).val = (y 2).val → x0 y = Q i)
    (h1 : ∀ (y : S1x2048x64.Idx) (i : A3.Idx), (i 0).val = g.val → (i 1).val = (y 1).val → (i 2).val = (y 2).val → x1 y = K i)
    (h2 : ∀ (y : S1x2048x64.Idx) (i : A3.Idx), (i 0).val = g.val → (i 1).val = (y 1).val → (i 2).val = (y 2).val → x2 y = W i)
    (j : S1x1024x64.Idx) (i : A3.Idx) (hi0 : (i 0).val = g.val) (hi1 : (i 1).val = o + (j 1).val) (hi2 : (i 2).val = (j 2).val) :
    k0_pay1 (F := Ideal) x0 x1 x2 j = attn3 Q K W i := by
  obtain ⟨u, s, d, rfl⟩ : ∃ (u : Fin 1) (s : Fin 1024) (d : Fin 64), j = ix3 u s d := ⟨j 0, j 1, j 2, eq_ix3 j⟩
  obtain ⟨a, b, d', rfl⟩ : ∃ (a : Fin 64) (b : Fin 2048) (d' : Fin 64), i = ix3 a b d' := ⟨i 0, i 1, i 2, eq_ix3 i⟩
  obtain rfl : a = g := Fin.ext hi0
  obtain rfl : d = d' := (Fin.ext hi2).symm
  have hb : b.val = o + s.val := hi1
  rw [Body.stored_apply]
  unfold attn3 score3
  refine Finset.sum_congr rfl fun t _ => ?_
  show (∑ e : Fin 64, x0 (ix3 (0 : Fin 1) s e) * x1 (ix3 (0 : Fin 1) t e)) * scale * x2 (ix3 (0 : Fin 1) t d)
    = (∑ e : Fin 64, Q (ix3 a b e) * K (ix3 a t e)) * scale * W (ix3 a t d)
  rw [h2 (ix3 (0 : Fin 1) t d) (ix3 a t d) rfl rfl rfl]
  refine congrArg (fun z => z * scale * W (ix3 a t d)) (Finset.sum_congr rfl fun e _ => ?_)
  rw [h0 (ix3 (0 : Fin 1) s e) (ix3 a b e) rfl hb rfl, h1 (ix3 (0 : Fin 1) t e) (ix3 a t e) rfl rfl rfl]

/-! ## The blocks of a point -/

/-- The printed index maps, decided over the 128 points: the query block moves with the output block, the key and
    value blocks follow its head only, and the output block's head and half stay in range. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 64 ∧ win0_3.index t (1 : Fin 3) < 2 ∧ win0_3.index t (2 : Fin 3) = 0 :=
  (by decide +kernel : ∀ t : Fin grid0.N, _)

/-- Every (head, half) is some point's output block. -/
theorem idx_onto : ∀ (g : Fin 64) (h : Fin 2), ∃ t : Fin cfg0.N, win0_3.index t = ![g.val, h.val, 0] :=
  (by decide +kernel : ∀ (g : Fin 64) (h : Fin 2), ∃ t : Fin grid0.N, win0_3.index t = ![g.val, h.val, 0])

/-- The query block at point `t`: rows `1024 h …` of head `g` of the merged queries, `(g, h)` the output block's. -/
theorem qblk_apply (c : Dev nD) (t : Fin cfg0.N) (y : S1x1024x64.Idx) (i : S64x2048x64.Idx)
    (h0 : (i 0).val = win0_3.index t (0 : Fin 3)) (h1 : (i 1).val = win0_3.index t (1 : Fin 3) * 1024 + (y 1).val) (h2 : (i 2).val = (y 2).val) :
    (iblk m c 0 t : Vec Ideal S1x1024x64 .f32) y = (V m c main_v0 : S64x2048x64.Idx → EReal) i := by
  obtain ⟨e0, e1, e2, -⟩ := idx_facts t
  have hy : (y 0).val < 1 := (y 0).isLt
  unfold iblk
  rw [View.read_apply]
  show V m c main_v0 _ = V m c main_v0 _
  congr 1
  funext a
  apply Fin.ext
  match a with
  | ⟨0, _⟩ => show win0_0.index t (0 : Fin 3) * 1 + 1 * (y 0).val = (i 0).val; omega
  | ⟨1, _⟩ => show win0_0.index t (1 : Fin 3) * 1024 + 1 * (y 1).val = (i 1).val; omega
  | ⟨2, _⟩ => show win0_0.index t (2 : Fin 3) * 64 + 1 * (y 2).val = (i 2).val; omega

/-- The key block at point `t`: head `g` of the merged keys, whole. -/
theorem kblk_apply (c : Dev nD) (t : Fin cfg0.N) (y : S1x2048x64.Idx) (i : S64x2048x64.Idx)
    (h0 : (i 0).val = win0_3.index t (0 : Fin 3)) (h1 : (i 1).val = (y 1).val) (h2 : (i 2).val = (y 2).val) :
    (iblk m c 1 t : Vec Ideal S1x2048x64 .f32) y = (V m c main_v1 : S64x2048x64.Idx → EReal) i := by
  obtain ⟨-, -, -, e0, e1, e2, -⟩ := idx_facts t
  have hy : (y 0).val < 1 := (y 0).isLt
  unfold iblk
  rw [View.read_apply]
  show V m c main_v1 _ = V m c main_v1 _
  congr 1
  funext a
  apply Fin.ext
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 64 + 1 * (y 2).val = (i 2).val; omega

/-- The value block at point `t`: head `g` of the merged values, whole. -/
theorem vblk_apply (c : Dev nD) (t : Fin cfg0.N) (y : S1x2048x64.Idx) (i : S64x2048x64.Idx)
    (h0 : (i 0).val = win0_3.index t (0 : Fin 3)) (h1 : (i 1).val = (y 1).val) (h2 : (i 2).val = (y 2).val) :
    (iblk m c 2 t : Vec Ideal S1x2048x64 .f32) y = (V m c main_v2 : S64x2048x64.Idx → EReal) i := by
  obtain ⟨-, -, -, -, -, -, e0, e1, e2, -⟩ := idx_facts t
  have hy : (y 0).val < 1 := (y 0).isLt
  unfold iblk
  rw [View.read_apply]
  show V m c main_v2 _ = V m c main_v2 _
  congr 1
  funext a
  apply Fin.ext
  match a with
  | ⟨0, _⟩ => show win0_2.index t (0 : Fin 3) * 1 + 1 * (y 0).val = (i 0).val; omega
  | ⟨1, _⟩ => show win0_2.index t (1 : Fin 3) * 2048 + 1 * (y 1).val = (i 1).val; omega
  | ⟨2, _⟩ => show win0_2.index t (2 : Fin 3) * 64 + 1 * (y 2).val = (i 2).val; omega

/-! ## What a point writes back, and the array after the run -/

/-- The merged result: `attn3` of the three merged arrays as the region finds them. -/
abbrev merged (c : Dev nD) : S64x2048x64.Idx → EReal :=
  attn3 (V m c main_v0) (V m c main_v1) (V m c main_v2)

/-- What point `t` writes back is its output block of the merged result. -/
theorem flushed_eq (c : Dev nD) (t : Fin cfg0.N) :
    (dats m 0 c).flushed 3 t = ((cfg0.win 3).blk t).view.read (Elt Ideal) (merged m c) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x2048x64) hz]
  obtain ⟨-, -, -, -, -, -, -, -, -, hg, hh, e2⟩ := idx_facts t
  funext j
  have hj0 : (j 0).val < 1 := (j 0).isLt
  rw [View.read_apply]
  refine stored_eq_attn3 (V m c main_v0) (V m c main_v1) (V m c main_v2) (iblk m c 0 t) (iblk m c 1 t) (iblk m c 2 t)
    ⟨win0_3.index t (0 : Fin 3), hg⟩ (win0_3.index t (1 : Fin 3) * 1024)
    (fun y i a b d => qblk_apply m c t y i a b d) (fun y i a b d => kblk_apply m c t y i a b d)
    (fun y i a b d => vblk_apply m c t y i a b d) j (((cfg0.win 3).blk t).view.emb j) ?_ ?_ ?_
  · show win0_3.index t (0 : Fin 3) * 1 + 1 * (j 0).val = win0_3.index t (0 : Fin 3); omega
  · show win0_3.index t (1 : Fin 3) * 1024 + 1 * (j 1).val = win0_3.index t (1 : Fin 3) * 1024 + (j 1).val; omega
  · show win0_3.index t (2 : Fin 3) * 64 + 1 * (j 2).val = (j 2).val; omega

/-- An index of the merged result array is in point `t`'s output block iff each coordinate is in the block's range. -/
theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

/-- The output blocks tile the array: index `(g, r, d)` lies in the block of head `g`, half `r / 1024`. -/
theorem cover (i : S64x2048x64.Idx) : ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The merged result array after the run. -/
theorem final (c : Dev nD) : (dats m 0 c).arrAt 3 cfg0.N = merged m c :=
  (dats m 0 c).arrAt_eq_of_cover 3 (merged m c) (fun t _ => flushed_eq m c t) cover

end Cert.Attn.Kernel

end
-- ==== Proof.KernelRun.lean ====
/-
  The idealized kernel program's run, read: its result is `attn` of its arguments.

  Before the region the program merges batch and head of each argument (three reshapes); the region leaves the
  merged result array at `attn3` of the merged arrays (`Blocks.final`); after the region one reshape splits the
  leading axis again. `Spec.split_attn3_merge` says that composite is `attn`.
-/
import proofs.«120791_j4990751998151_1_alg».proof.Proof.Blocks

noncomputable section

open Idealize.ShloMosaic Idealize.ShloMosaic.TcCoe Idealize.SL.Sem
open Idealize.ShloMosaic.Pipeline (Dat)

namespace Cert.Attn.Kernel

open Idealize.ShloMosaic.ValueIdx Cert.KernelIdeal Cert.KernelIdeal.Gen Cert.Attn

variable (m : (ℓ : Loc nD τ sig) → Buf (Elt Ideal) ℓ) (ρ : Dev nD → PrngReg)

/-! ## The merged arrays the region finds -/

/-- The region finds the queries with batch and head merged, -/
theorem V_q (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl
/-- the keys likewise, -/
theorem V_k (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl
/-- and the values. -/
theorem V_v (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-! ## The result buffer after the last reshape -/

/-- The program's result: the merged result array split again, which is `attn` of the arguments. -/
theorem result_eq (c : Dev nD) :
    Pipeline.afterTail₀ cfgs (dats m) 0 (V0 m) [hostOps1] c main_v4
      = attn (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = attn3 (shapeCast S64x2048x64 (m ((c : Thread nD τ).loc main_arg0)) shapeCasts_S4x16x2048x64_S64x2048x64)
          (shapeCast S64x2048x64 (m ((c : Thread nD τ).loc main_arg1)) shapeCasts_S4x16x2048x64_S64x2048x64)
          (shapeCast S64x2048x64 (m ((c : Thread nD τ).loc main_arg2)) shapeCasts_S4x16x2048x64_S64x2048x64) :=
    ((Pipeline.withArrays_arr spec0 launch0.win.arr_inj c _ _ 3).trans (final m c)).trans (by
      unfold merged; rw [V_q, V_k, V_v])
  rw [e]
  exact split_attn3_merge _ _ _ shapeCasts_S4x16x2048x64_S64x2048x64 shapeCasts_S64x2048x64_S4x16x2048x64

/-! ## The run -/

/-- Every weakly fair execution of the idealized kernel program ends with its result at `attn` of its arguments
    and the arguments as launched. -/
theorem run : θ_run defs (onTc (τ := τ) (main (F := Ideal))) ⟨m, fun _ => 0, ρ⟩ fun r => ∀ c : Dev nD,
      r.2.mem ((c.tc : Thread nD τ).loc main_v4)
        = attn (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Kernel

end
-- ==== Proof.lean ====
/-
  The certificate: a tiled attention-without-softmax kernel against its einsum reference, on the extended reals.

  Both programs compute, for q k v : [4, 16, 2048, 64],

      out[b,h,s,d] = ∑ t, ((∑ e, q[b,h,s,e] · k[b,h,t,e]) · 1/8) · v[b,h,t,d]

  (`Attn.attn`, Proof/Spec.lean). The reference does so in two batched products with the constant between them
  (Proof/RefValue.lean). The kernel merges batch and head into 64 heads, and at each of its 64 × 2 grid points
  takes 1024 query rows of one head against that head's whole keys and values: two products into zero accumulators
  with the scale between them (Proof/Payload.lean); the 128 output blocks tile the merged result
  (Proof/Blocks.lean), which the program splits into batch and head again (Proof/KernelRun.lean). On the
  extended reals the formats' changes are the identity and the products are plain sums, so the two results are
  the same sums of the same terms: no algebraic law is needed beyond renaming the leading coordinate, and the
  inputs' finiteness is not used.

  The three frames are the generated ones (the reference's is its generated run with the result dropped); the
  idealization rewrote nothing, so `preserves` is trivial.
-/
import proofs.«120791_j4990751998151_1_alg».proof.Defs
import proofs.«120791_j4990751998151_1_alg».proof.Proof.Gen.Kernel
import proofs.«120791_j4990751998151_1_alg».proof.Proof.Gen.Kernel.Skeleton
import proofs.«120791_j4990751998151_1_alg».proof.Proof.Gen.Kernel.Launch
import proofs.«120791_j4990751998151_1_alg».proof.Proof.Gen.Kernel.Points
import proofs.«120791_j4990751998151_1_alg».proof.Proof.Gen.Kernel.Frame
import proofs.«120791_j4990751998151_1_alg».proof.Proof.Gen.KernelIdeal
import proofs.«120791_j4990751998151_1_alg».proof.Proof.Gen.KernelIdeal.Skeleton
import proofs.«120791_j4990751998151_1_alg».proof.Proof.Gen.KernelIdeal.Launch
import proofs.«120791_j4990751998151_1_alg».proof.Proof.Gen.KernelIdeal.Points
import proofs.«120791_j4990751998151_1_alg».proof.Proof.Gen.KernelIdeal.Frame
import proofs.«120791_j4990751998151_1_alg».proof.Proof.Gen.ReferenceIdeal
import proofs.«120791_j4990751998151_1_alg».proof.Proof.Gen.Pre_finite_inputs
import proofs.«120791_j4990751998151_1_alg».proof.Proof.Gen.ReferenceIdeal.Run
import proofs.«120791_j4990751998151_1_alg».proof.Proof.Gen.ReferenceIdeal.Read
import proofs.«120791_j4990751998151_1_alg».proof.Proof.RefValue
import proofs.«120791_j4990751998151_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at `attn` of their arguments, which agree. -/
theorem algebraic : Cert.algebraic_KernelIdeal_ReferenceIdeal := by
  intro m ρ m' ρ' _ hagree
  refine ⟨_, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Attn.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
